-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S65536 : Shape := ⟨1, ![65536]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  main_v18

def fn {F : FTy → Type} [FloatOps F] (main_arg0 : FVec F S512x65536 .f32) (main_arg1 : FVec F S512x65536 .f32) (main_arg2 : FVec F S65536 .f32) (main_arg3 : FVec F S65536 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  let main_v4 : FVec F S512x65536 .f32 := Host.absf main_arg1
  let main_cst_0 : FVec F S_ .f32 := constant S_ .f32 0x7F800000#32
  let main_v5 : FVec F S512x65536 .f32 := broadcastInDim S512x65536 ![] bcast_S_S512x65536 main_cst_0
  let main_v6 : IVec S512x65536 1 := cmpf .olt main_v4 main_v5
  let main_c_1 : IVec S_ 1 := constantI S_ 1 1#1
  let main_v7 : IVec S_ 1 := (fun x v => Host.reduce IntOp.andi x v reducesTo_S512x65536_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_v13 main_v16
-- ==== Kernel.lean ====
abbrev S512x65536 : Shape := ⟨2, ![512, 65536]⟩
abbrev S65536 : Shape := ⟨1, ![65536]⟩
abbrev S1x65536 : Shape := ⟨2, ![1, 65536]⟩
abbrev S512x4 : Shape := ⟨2, ![512, 4]⟩
abbrev S128x2048 : Shape := ⟨2, ![128, 2048]⟩
abbrev S1x2048 : Shape := ⟨2, ![1, 2048]⟩
abbrev S128x4 : Shape := ⟨2, ![128, 4]⟩
abbrev S128x1 : Shape := ⟨2, ![128, 1]⟩
abbrev S128 : Shape := ⟨1, ![128]⟩
abbrev S512x1 : Shape := ⟨2, ![512, 1]⟩
abbrev S512 : Shape := ⟨1, ![512]⟩
abbrev S_ : Shape := ⟨0, ![]⟩

abbrev nBuf : Space → Nat
  | .hbm => 40
  | .vmem => 14
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S65536, .f32⟩
  | .hbm, ⟨3, _⟩ => ⟨S65536, .f32⟩
  | .hbm, ⟨4, _⟩ => ⟨S1x65536, .f32⟩
  | .hbm, ⟨5, _⟩ => ⟨S1x65536, .f32⟩
  | .hbm, ⟨6, _⟩ => ⟨S512x4, .f32⟩
  | .hbm, ⟨7, _⟩ => ⟨S512x1, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S512x1, .f32⟩
  | .hbm, ⟨12, _⟩ => ⟨S512, .f32⟩
  | .hbm, ⟨13, _⟩ => ⟨S512x1, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S128x4, .f32⟩
  | .local _ .vmem, ⟨9, _⟩ => ⟨S128x4, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v56 : BitVec 1 := Scalar.cmpi .eq arg1 c31_i32
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S65536_S1x65536 : S65536.ShapeCasts S1x65536
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  reduces_S128x2048_S128 : S128x2048.Reduces [1] S128
  shapeCasts_S128_S128x1 : S128.ShapeCasts S128x1
  concatenates_S128x1_S128x1_S128x1_S128x1_S128x4_d1 : Shape.Concatenates [S128x1, S128x1, S128x1, S128x1] S128x4 1
  inb_S128x4_S128x4_0_0 : ∀ a, (![0, 0] : Fin 2 → Nat) a + S128x4.size a ≤ S128x4.size a
  h_S128x4 : 0 < S128x4.numel
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S_S512 : S_.BroadcastsInDim S512 (![] : Fin 0 → Fin S512.rank)
  reducesTo_S512_S_d0 : S512.ReducesTo [0] S_
  h_S_ : 0 < S_.numel
  reducesTo_S65536_S_d0 : S65536.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S512x65536.size a
  hwx0_0 : ∀ i : grid0.Coords, EltTy.bits .f32 = 32 ∨ (Rect.block (s := S512x65536) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S512x65536.size a
  hwx0_1 : ∀ i : grid0.Coords, EltTy.bits .f32 = 32 ∨ (Rect.block (s := S512x65536) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x65536.size a
  hwx0_2 : ∀ i : grid0.Coords, EltTy.bits .f32 = 32 ∨ (Rect.block (s := S1x65536) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x65536.size a
  hwx0_3 : ∀ i : grid0.Coords, EltTy.bits .f32 = 32 ∨ (Rect.block (s := S1x65536) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4.size a ≤ S512x4.size a
  hwx0_4 : ∀ i : grid0.Coords, EltTy.bits .f32 = 32 ∨ (Rect.block (s := S512x4) S128x4.size (cc0_transform_4 i) (hinb0_4 i)).WholeWords (EltTy.packing .f32)

variable [Facts₀]

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x65536 : Shape := ⟨2, ![512, 65536]⟩
abbrev S65536 : Shape := ⟨1, ![65536]⟩
abbrev S1x65536 : Shape := ⟨2, ![1, 65536]⟩
abbrev S_ : Shape := ⟨0, ![]⟩
abbrev S512 : Shape := ⟨1, ![512]⟩

abbrev nBuf : Space → Nat
  | .hbm => 57
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S65536, .f32⟩
  | .hbm, ⟨3, _⟩ => ⟨S65536, .f32⟩
  | .hbm, ⟨4, _⟩ => ⟨S1x65536, .f32⟩
  | .hbm, ⟨5, _⟩ => ⟨S512x65536, .f32⟩
  | .hbm, ⟨6, _⟩ => ⟨S512x65536, .f32⟩
  | .hbm, ⟨7, _⟩ => ⟨S1x65536, .f32⟩
  | .hbm, ⟨8, _⟩ => ⟨S512x65536, .f32⟩
  | .hbm, ⟨9, _⟩ => ⟨S512x65536, .f32⟩
  | .hbm, ⟨10, _⟩ => ⟨S512x65536, .f32⟩
  | .hbm, ⟨11, _⟩ => ⟨S_, .f32⟩
  | .hbm, ⟨12, _⟩ => ⟨S512, .f32⟩
  | .hbm, ⟨13, _⟩ => ⟨S512x65536, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512x65536, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512x65536, .f32⟩
  | .hbm, ⟨36, _⟩ => ⟨S512x65536, .f32⟩
  | .hbm, ⟨37, _⟩ => ⟨S512x65536, .f32⟩
  | .hbm, ⟨38, _⟩ => ⟨S512x65536, .f32⟩
  | .hbm, ⟨39, _⟩ => ⟨S512x65536, .f32⟩
  | .hbm, ⟨40, _⟩ => ⟨S512x65536, .f32⟩
  | .hbm, ⟨41, _⟩ => ⟨S512x65536, .f32⟩
  | .hbm, ⟨42, _⟩ => ⟨S512x65536, .f32⟩
  | .hbm, ⟨43, _⟩ => ⟨S512x65536, .f32⟩
  | .hbm, ⟨44, _⟩ => ⟨S1x65536, .f32⟩
  | .hbm, ⟨45, _⟩ => ⟨S512x65536, .f32⟩
  | .hbm, ⟨46, _⟩ => ⟨S512x65536, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  reducesTo_S512x65536_S512_d1 : S512x65536.ReducesTo [1] S512
  h_S_ : 0 < S_.numel
  bcast_S_S512 : S_.BroadcastsInDim S512 (![] : Fin 0 → Fin S512.rank)
  reducesTo_S512_S_d0 : S512.ReducesTo [0] S_
  bcast_S_S512x65536 : S_.BroadcastsInDim S512x65536 (![] : Fin 0 → Fin S512x65536.rank)
  reducesTo_S512x65536_S_d0_1 : S512x65536.ReducesTo [0, 1] S_
  reducesTo_S65536_S_d0 : S65536.ReducesTo [0] S_

variable [Facts₀]

class Facts : Prop extends Facts₀ where

variable [Facts]
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  The mathematics both programs compute, stated once over plain extended-real arrays.

  For prediction `P` and target `T` of shape [512, 65536] and the two weight rows `cw`, `bw` of length 65536, four
  per-entry terms at row `R` and column `C`:
    term 0 = (T·cw)·(P·cw)          (the cosine's numerator)
    term 1 = (T·cw)²                (the first squared norm)
    term 2 = (P·cw)²                (the second squared norm)
    term 3 = (max(T,0) − T·P + log1p(exp(0 − |T|)))·bw   (the weighted stable logistic loss)
  and for each row the four sums of these over all 65536 columns. The reference sums a row in one go; the kernel walks
  the columns in 32 tiles of 2048 and keeps a running sum per row, so what has to be known about sums is only that a sum over
  65536 columns is the sum over the 32 tiles of the sums inside each tile (addition on the extended reals is commutative and
  associative, which is all a regrouping needs: no finiteness is used anywhere).

  Indices are read as natural numbers here (`rd2`, `rd1`: an array read at a pair of naturals, zero outside the range),
  so that "row 128·b + r, column 2048·k + l" is plain linear arithmetic on naturals.
-/
import Idealize.ShloMosaic.PureOps.Ideal
import Idealize.ShloMosaic.PureOps.Ideal.Laws
import Idealize.ShloMosaic.Lib.ValueIdx
import proofs.«137860_j34583076667969_1_alg».proof.Proof.LibSumBlocks

noncomputable section

open Idealize.ShloMosaic Idealize.ShloMosaic.ValueIdx
open scoped BigOperators

namespace CosCel

/-- The zero the programs write as the word `0x00000000`. -/
abbrev z0 : EReal := Ideal.ofBits .f32 0x00000000#32

theorem z0_eq : z0 = 0 := Ideal.ofBits_zero_f32

/-- A [rows, cols] array read at a pair of naturals (zero outside the range). -/
def rd2 {a b : ℕ} (X : (⟨2, ![a, b]⟩ : Shape).Idx → EReal) (R C : ℕ) : EReal :=
  if h : R < a ∧ C < b then X (ix2 ⟨R, h.1⟩ ⟨C, h.2⟩) else 0

theorem rd2_of_lt {a b : ℕ} (X : (⟨2, ![a, b]⟩ : Shape).Idx → EReal) (R : Fin a) (C : Fin b) :
    rd2 X R.val C.val = X (ix2 R C) := by
  unfold rd2; rw [dif_pos ⟨R.isLt, C.isLt⟩]

theorem rd2_eq {a b : ℕ} (X : (⟨2, ![a, b]⟩ : Shape).Idx → EReal) (R C : ℕ) (i : (⟨2, ![a, b]⟩ : Shape).Idx)
    (h0 : (i 0).val = R) (h1 : (i 1).val = C) : X i = rd2 X R C := by
  subst h0 h1
  unfold rd2
  rw [dif_pos (⟨idx2_lt0 i, idx2_lt1 i⟩ : (i 0).val < a ∧ (i 1).val < b)]
  exact congrArg X (funext fun d => match d with | ⟨0, _⟩ => rfl | ⟨1, _⟩ => rfl)

/-- A length-`b` array read at a natural (zero outside the range). -/
def rd1 {b : ℕ} (x : (⟨1, ![b]⟩ : Shape).Idx → EReal) (C : ℕ) : EReal :=
  if h : C < b then x (ix1 ⟨C, h⟩) else 0

theorem rd1_of_lt {b : ℕ} (x : (⟨1, ![b]⟩ : Shape).Idx → EReal) (C : Fin b) : rd1 x C.val = x (ix1 C) := by
  unfold rd1; rw [dif_pos C.isLt]

theorem rd1_eq {b : ℕ} (x : (⟨1, ![b]⟩ : Shape).Idx → EReal) (C : ℕ) (i : (⟨1, ![b]⟩ : Shape).Idx)
    (h0 : (i 0).val = C) : x i = rd1 x C := by
  subst h0
  unfold rd1
  rw [dif_pos (show (i 0).val < b from (i 0).isLt)]
  exact congrArg x (funext fun d => match d with | ⟨0, _⟩ => rfl)

/-- The four per-entry terms, from the entry of the target `t`, of the prediction `p` and of the two weight rows. -/
def term0 (t p cw : EReal) : EReal := (t * cw) * (p * cw)
def term1 (t cw : EReal) : EReal := (t * cw) * (t * cw)
def term2 (p cw : EReal) : EReal := (p * cw) * (p * cw)
def term3 (t p bw : EReal) : EReal := (max t z0 - t * p + Ideal.log1p (Ideal.exp (z0 - max t (-t)))) * bw

/-- The inputs: target, prediction, the two weight rows. -/
structure Inputs where
  T : (⟨2, ![512, 65536]⟩ : Shape).Idx → EReal
  P : (⟨2, ![512, 65536]⟩ : Shape).Idx → EReal
  cw : (⟨1, ![65536]⟩ : Shape).Idx → EReal
  bw : (⟨1, ![65536]⟩ : Shape).Idx → EReal

/-- Term `j` at row `R`, column `C`. -/
def entry (I : Inputs) (j : Fin 4) (R C : ℕ) : EReal :=
  match j with
  | 0 => term0 (rd2 I.T R C) (rd2 I.P R C) (rd1 I.cw C)
  | 1 => term1 (rd2 I.T R C) (rd1 I.cw C)
  | 2 => term2 (rd2 I.P R C) (rd1 I.cw C)
  | 3 => term3 (rd2 I.T R C) (rd2 I.P R C) (rd1 I.bw C)

/-- The sum of term `j` over column tile `k` (columns 2048·k … 2048·k + 2047) of row `R`. -/
def tileSum (I : Inputs) (j : Fin 4) (R k : ℕ) : EReal := ∑ l : Fin 2048, entry I j R (2048 * k + l.val)

/-- The running sum of row `R` after column tiles 0 … ci. -/
def runSum (I : Inputs) (j : Fin 4) (R ci : ℕ) : EReal := ∑ k ∈ Finset.range (ci + 1), tileSum I j R k

/-- The whole row sum. -/
def rowSum (I : Inputs) (j : Fin 4) (R : ℕ) : EReal := ∑ C : Fin 65536, entry I j R C.val

theorem runSum_zero (I : Inputs) (j : Fin 4) (R : ℕ) : runSum I j R 0 = tileSum I j R 0 := by
  unfold runSum; rw [Finset.sum_range_one]

theorem runSum_succ (I : Inputs) (j : Fin 4) (R ci : ℕ) :
    runSum I j R (ci + 1) = runSum I j R ci + tileSum I j R (ci + 1) := by
  unfold runSum; rw [Finset.sum_range_succ]

/-- After the last tile the running sum is the whole row sum: 65536 columns are 32 tiles of 2048. -/
theorem runSum_last (I : Inputs) (j : Fin 4) (R : ℕ) : runSum I j R 31 = rowSum I j R := by
  unfold runSum rowSum tileSum
  rw [Fin.sum_rowMajor2 32 2048 (fun C : Fin (32 * 2048) => entry I j R C.val), ← Fin.sum_univ_eq_sum_range (fun k => ∑ l : Fin 2048, entry I j R (2048 * k + l.val)) 32]
  refine Finset.sum_congr rfl fun k _ => Finset.sum_congr rfl fun l _ => ?_
  show entry I j R (2048 * k.val + l.val) = entry I j R (k.val * 2048 + l.val)
  rw [Nat.mul_comm]

end CosCel

end
-- ==== Proof.Finish.lean ====
/-
  The closing arithmetic, the same text in both programs: from the three per-row sums (numerator, two squared norms), the
  total of the weighted loss and the loss weights, the scalar

     −( Σ_R  num R / (max(√aa R, ε) · max(√bb R, ε)) ) / 512  +  ( tot / (Σ bw + δ) ) / 10 .

  Both programs reach this expression with their own row sums and total in the operand places; that those operands are the
  same functions of the inputs is what the rest of the proof shows, and this expression is never opened.
-/
import Idealize.ShloMosaic.PureOps
import proofs.«137860_j34583076667969_1_alg».proof.Proof.Spec

noncomputable section

open Idealize.ShloMosaic Idealize.ShloMosaic.ValueIdx
open scoped BigOperators

namespace CosCel

abbrev V512 : Shape := ⟨1, ![512]⟩
abbrev V65536 : Shape := ⟨1, ![65536]⟩
abbrev V0 : Shape := ⟨0, ![]⟩

/-- The closing arithmetic as the host operations spell it. -/
def finish (hb : V0.BroadcastsInDim V512 (![] : Fin 0 → Fin V512.rank)) (hr : V512.ReducesTo [0] V0)
    (hr' : V65536.ReducesTo [0] V0) (h0 : 0 < V0.numel)
    (num aa bb : FVec Ideal V512 .f32) (tot : FVec Ideal V0 .f32) (bw : FVec Ideal V65536 .f32) : FVec Ideal V0 .f32 :=
  addf
    (Host.negf (Host.divf
      (Host.reduceAdd
        (Host.divf num
          (mulf (maximumf (Host.sqrt aa) (broadcastInDim V512 ![] hb (constant (F := Ideal) V0 .f32 0x322BCC77#32)))
                (maximumf (Host.sqrt bb) (broadcastInDim V512 ![] hb (constant (F := Ideal) V0 .f32 0x322BCC77#32)))))
        (constant (F := Ideal) V0 .f32 0x00000000#32) hr h0)
      (constant (F := Ideal) V0 .f32 0x44000000#32)))
    (Host.divf
      (Host.divf tot
        (addf (Host.reduceAdd bw (constant (F := Ideal) V0 .f32 0x00000000#32) hr' h0) (constant (F := Ideal) V0 .f32 0x2EDBE6FF#32)))
      (constant (F := Ideal) V0 .f32 0x41200000#32))

/-- The row sums of term `j` as a length-512 vector. -/
def rowSums (I : Inputs) (j : Fin 4) : FVec Ideal V512 .f32 := fun i => rowSum I j (i 0).val

/-- The total of the weighted loss: the initial zero plus the sum over the rows of the rows' sums. -/
def total (I : Inputs) : FVec Ideal V0 .f32 := fun _ => z0 + ∑ R : Fin 512, rowSum I 3 R.val

/-- What both programs return. -/
def result (hb : V0.BroadcastsInDim V512 (![] : Fin 0 → Fin V512.rank)) (hr : V512.ReducesTo [0] V0)
    (hr' : V65536.ReducesTo [0] V0) (h0 : 0 < V0.numel) (I : Inputs) : FVec Ideal V0 .f32 :=
  finish hb hr hr' h0 (rowSums I 0) (rowSums I 1) (rowSums I 2) (total I) I.bw

end CosCel

end
-- ==== Proof.RefValue.lean ====
/-
  The reference's result, read one operation at a time: its three per-row sums are the whole-row sums of the first three
  per-entry terms, its total is the sum over all 512·65536 entries of the fourth (a sum over pairs is the sum over rows of the
  sums along each row), and what it does with them is the shared closing arithmetic.

  Two spellings differ from the kernel's and are the same extended real: the initial value `0 + Σ` of each host sum, and the
  reference's `−|t|` where the kernel writes `0 − |t|`.
-/
import proofs.«137860_j34583076667969_1_alg».proof.Defs
import proofs.«137860_j34583076667969_1_alg».proof.Proof.Gen.ReferenceIdeal.Run
import proofs.«137860_j34583076667969_1_alg».proof.Proof.Gen.ReferenceIdeal.Read
import proofs.«137860_j34583076667969_1_alg».proof.Proof.Spec
import proofs.«137860_j34583076667969_1_alg».proof.Proof.Finish
import Idealize.ShloMosaic.Lib.ValueIdx

noncomputable section

open Idealize.ShloMosaic Idealize.ShloMosaic.ValueIdx
open scoped BigOperators

namespace Cert.ReferenceIdeal.RefValue

open Cert.ReferenceIdeal Cert.ReferenceIdeal.Gen Cert.ReferenceIdeal.Read CosCel

variable (x0 x1 : (⟨S512x65536, .f32⟩ : BufTy).Contents (Elt Ideal)) (x2 x3 : (⟨S65536, .f32⟩ : BufTy).Contents (Elt Ideal))

/-- The reference's inputs under the names of the specification: target = argument 1, prediction = argument 0. -/
abbrev inp : Inputs := ⟨x1, x0, x2, x3⟩

/-- A weight row spread over [512, 65536] reads, at (R, C), the row at C. -/
theorem spread1 (i : S512x65536.Idx) : val_main_v1 (F := Ideal) x2 i = rd1 x2 (i 1).val := by
  rw [val_main_v1_apply, val_main_v0_apply]; exact rd1_eq x2 _ _ rfl
theorem spread4 (i : S512x65536.Idx) : val_main_v4 (F := Ideal) x2 i = rd1 x2 (i 1).val := by
  rw [val_main_v4_apply, val_main_v3_apply]; exact rd1_eq x2 _ _ rfl
theorem spread33 (i : S512x65536.Idx) : val_main_v33 (F := Ideal) x3 i = rd1 x3 (i 1).val := by
  rw [val_main_v33_apply, val_main_v32_apply]; exact rd1_eq x3 _ _ rfl

/-- The numerator's row sums. -/
theorem num_eq : val_main_v7 (F := Ideal) x0 x1 x2 = rowSums (inp x0 x1 x2 x3) 0 := by
  funext i
  rw [val_main_v7_apply]
  show z0 + _ = rowSum (inp x0 x1 x2 x3) 0 (i 0).val
  rw [z0_eq, zero_add]
  unfold rowSum
  refine Finset.sum_congr rfl fun k _ => ?_
  rw [val_main_v6_apply, val_main_v2_apply, val_main_v5_apply, spread1, spread4]
  show (x1 (idx_main_v7 i k) * rd1 x2 k.val) * (x0 (idx_main_v7 i k) * rd1 x2 k.val) = _
  rw [rd2_eq x1 (i 0).val k.val (idx_main_v7 i k) rfl rfl, rd2_eq x0 (i 0).val k.val (idx_main_v7 i k) rfl rfl]
  rfl

/-- The target's squared-norm row sums. -/
theorem aa_eq : val_main_v9 (F := Ideal) x1 x2 = rowSums (inp x0 x1 x2 x3) 1 := by
  funext i
  rw [val_main_v9_apply]
  show z0 + _ = rowSum (inp x0 x1 x2 x3) 1 (i 0).val
  rw [z0_eq, zero_add]
  unfold rowSum
  refine Finset.sum_congr rfl fun k _ => ?_
  rw [val_main_v8_apply, val_main_v2_apply, spread1]
  show (x1 (idx_main_v9 i k) * rd1 x2 k.val) * (x1 (idx_main_v9 i k) * rd1 x2 k.val) = _
  rw [rd2_eq x1 (i 0).val k.val (idx_main_v9 i k) rfl rfl]
  rfl

/-- The prediction's squared-norm row sums. -/
theorem bb_eq : val_main_v12 (F := Ideal) x0 x2 = rowSums (inp x0 x1 x2 x3) 2 := by
  funext i
  rw [val_main_v12_apply]
  show z0 + _ = rowSum (inp x0 x1 x2 x3) 2 (i 0).val
  rw [z0_eq, zero_add]
  unfold rowSum
  refine Finset.sum_congr rfl fun k _ => ?_
  rw [val_main_v11_apply, val_main_v5_apply, spread4]
  show (x0 (idx_main_v12 i k) * rd1 x2 k.val) * (x0 (idx_main_v12 i k) * rd1 x2 k.val) = _
  rw [rd2_eq x0 (i 0).val k.val (idx_main_v12 i k) rfl rfl]
  rfl

/-- The weighted loss at one entry, in the reference's spelling, is the specification's fourth term. -/
theorem loss_entry (a : Fin 512) (b : Fin 65536) :
    val_main_v34 (F := Ideal) x0 x1 x3 (ix2 a b) = entry (inp x0 x1 x2 x3) 3 a.val b.val := by
  rw [val_main_v34_apply, spread33]
  show (max (x1 (ix2 a b)) z0 - x1 (ix2 a b) * x0 (ix2 a b) + Ideal.log1p (Ideal.exp (-(max (x1 (ix2 a b)) (-(x1 (ix2 a b)))))))
      * rd1 x3 b.val = term3 (rd2 x1 a.val b.val) (rd2 x0 a.val b.val) (rd1 x3 b.val)
  rw [rd2_of_lt x1 a b, rd2_of_lt x0 a b]
  unfold term3
  rw [show z0 - max (x1 (ix2 a b)) (-(x1 (ix2 a b))) = -(max (x1 (ix2 a b)) (-(x1 (ix2 a b)))) from by rw [z0_eq, zero_sub]]

/-- The total of the weighted loss. -/
theorem tot_eq : val_main_v35 (F := Ideal) x0 x1 x3 = total (inp x0 x1 x2 x3) := by
  funext i
  rw [val_main_v35_apply]
  show z0 + _ = z0 + ∑ R : Fin 512, rowSum (inp x0 x1 x2 x3) 3 R.val
  rw [sum_idx2]
  refine congrArg (z0 + ·) (Finset.sum_congr rfl fun a _ => ?_)
  unfold rowSum
  exact Finset.sum_congr rfl fun b _ => loss_entry x0 x1 x2 x3 a b

/-- The reference's result is the specification's. -/
theorem result_eq :
    val_main_v40 (F := Ideal) x0 x1 x2 x3
      = result bcast_S_S512 reducesTo_S512_S_d0 reducesTo_S65536_S_d0 h_S_ (inp x0 x1 x2 x3) := by
  show finish bcast_S_S512 reducesTo_S512_S_d0 reducesTo_S65536_S_d0 h_S_ (val_main_v7 (F := Ideal) x0 x1 x2)
      (val_main_v9 (F := Ideal) x1 x2) (val_main_v12 (F := Ideal) x0 x2) (val_main_v35 (F := Ideal) x0 x1 x3) x3 = _
  rw [num_eq x0 x1 x2 x3, aa_eq x0 x1 x2 x3, bb_eq x0 x1 x2 x3, tot_eq x0 x1 x2 x3]
  rfl

end Cert.ReferenceIdeal.RefValue

end
-- ==== Proof.KBlocks.lean ====
/-
  The tiles the kernel body sees at grid point t = 32·b + k (row block b of 4, column tile k of 32): rows 128·b … 128·b + 127 and
  columns 2048·k … 2048·k + 2047 of the target and of the prediction, and the same columns of the two weight rows (which the
  program first views as [1, 65536] arrays). With them, the sum over a tile's columns of each per-entry term is the
  specification's tile sum.
-/
import proofs.«137860_j34583076667969_1_alg».proof.Proof.Gen.KernelIdeal.Frame
import proofs.«137860_j34583076667969_1_alg».proof.Proof.Spec
import Idealize.ShloMosaic.Lib.Pipeline.Value
import Idealize.ShloMosaic.Lib.ValueLayout
import Idealize.ShloMosaic.Lib.StableHlo.Run

noncomputable section

open Idealize.ShloMosaic Idealize.ShloMosaic.TcCoe Idealize.ShloMosaic.ValueIdx Idealize.SL.Sem
open scoped BigOperators

namespace Cert.KernelIdeal.Blocks

open Cert.KernelIdeal Cert.KernelIdeal.Gen CosCel

variable (m : (ℓ : Loc nD τ sig) → Buf (Elt Ideal) ℓ)

/-- The kernel program's inputs under the names of the specification: target = argument 1, prediction = argument 0. -/
abbrev inp (c : Dev nD) : Inputs :=
  ⟨m ((c : Thread nD τ).loc main_arg1), m ((c : Thread nD τ).loc main_arg0), m ((c : Thread nD τ).loc main_arg2), m ((c : Thread nD τ).loc main_arg3)⟩

/-- Where each window's block sits at point t: row block t / 32, column tile t % 32. -/
theorem idx0 : ∀ t : Fin cfg0.N, win0_0.index t (0 : Fin 2) = t.val / 32 ∧ win0_0.index t (1 : Fin 2) = t.val % 32 :=
  (by decide +kernel : ∀ t : Fin grid0.N, win0_0.index t (0 : Fin 2) = t.val / 32 ∧ win0_0.index t (1 : Fin 2) = t.val % 32)
theorem idx1 : ∀ t : Fin cfg0.N, win0_1.index t (0 : Fin 2) = t.val / 32 ∧ win0_1.index t (1 : Fin 2) = t.val % 32 :=
  (by decide +kernel : ∀ t : Fin grid0.N, win0_1.index t (0 : Fin 2) = t.val / 32 ∧ win0_1.index t (1 : Fin 2) = t.val % 32)
theorem idx2 : ∀ t : Fin cfg0.N, win0_2.index t (0 : Fin 2) = 0 ∧ win0_2.index t (1 : Fin 2) = t.val % 32 :=
  (by decide +kernel : ∀ t : Fin grid0.N, win0_2.index t (0 : Fin 2) = 0 ∧ win0_2.index t (1 : Fin 2) = t.val % 32)
theorem idx3 : ∀ t : Fin cfg0.N, win0_3.index t (0 : Fin 2) = 0 ∧ win0_3.index t (1 : Fin 2) = t.val % 32 :=
  (by decide +kernel : ∀ t : Fin grid0.N, win0_3.index t (0 : Fin 2) = 0 ∧ win0_3.index t (1 : Fin 2) = t.val % 32)
theorem idx4 : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

/-- The [1, 65536] view of the first weight row, as the region finds it. -/
theorem V_v0 (c : Dev nD) : (V m c main_v0 : S1x65536.Idx → EReal)
    = shapeCast S1x65536 (m ((c : Thread nD τ).loc main_arg2)) shapeCasts_S65536_S1x65536 := by
  show StableHlo.after hostOps0 (fun b => m (c, b)) (Proc.devRef .tc main_v0) = _
  after_results
  rfl

/-- The [1, 65536] view of the second weight row, as the region finds it. -/
theorem V_v1 (c : Dev nD) : (V m c main_v1 : S1x65536.Idx → EReal)
    = shapeCast S1x65536 (m ((c : Thread nD τ).loc main_arg3)) shapeCasts_S65536_S1x65536 := by
  show StableHlo.after hostOps0 (fun b => m (c, b)) (Proc.devRef .tc main_v1) = _
  after_results
  rfl

/-- The prediction's tile. -/
theorem blkP (c : Dev nD) (t : Fin cfg0.N) (r : Fin 128) (l : Fin 2048) :
    (iblk m c 0 t : Vec Ideal S128x2048 .f32) (ix2 r l)
      = rd2 (inp m c).P (128 * (t.val / 32) + r.val) (2048 * (t.val % 32) + l.val) := by
  unfold iblk
  rw [View.read_apply]
  show V m c main_arg0 _ = _
  rw [V_main_arg0]
  refine rd2_eq _ _ _ _ ?_ ?_
  · show win0_0.index t 0 * 128 + 1 * r.val = _
    rw [(idx0 t).1]; omega
  · show win0_0.index t 1 * 2048 + 1 * l.val = _
    rw [(idx0 t).2]; omega

/-- The target's tile. -/
theorem blkT (c : Dev nD) (t : Fin cfg0.N) (r : Fin 128) (l : Fin 2048) :
    (iblk m c 1 t : Vec Ideal S128x2048 .f32) (ix2 r l)
      = rd2 (inp m c).T (128 * (t.val / 32) + r.val) (2048 * (t.val % 32) + l.val) := by
  unfold iblk
  rw [View.read_apply]
  show V m c main_arg1 _ = _
  rw [V_main_arg1]
  refine rd2_eq _ _ _ _ ?_ ?_
  · show win0_1.index t 0 * 128 + 1 * r.val = _
    rw [(idx1 t).1]; omega
  · show win0_1.index t 1 * 2048 + 1 * l.val = _
    rw [(idx1 t).2]; omega

/-- The first weight row's piece. -/
theorem blkCw (c : Dev nD) (t : Fin cfg0.N) (l : Fin 2048) :
    (iblk m c 2 t : Vec Ideal S1x2048 .f32) (ix2 (0 : Fin 1) l) = rd1 (inp m c).cw (2048 * (t.val % 32) + l.val) := by
  have hlt : 2048 * (t.val % 32) + l.val < 65536 := by have := l.isLt; omega
  unfold iblk
  rw [View.read_apply]
  show V m c main_v0 _ = _
  rw [V_v0]
  refine (shapeCast_apply _ shapeCasts_S65536_S1x65536 _ (ix1 ⟨_, hlt⟩) ?_).trans (rd1_of_lt (inp m c).cw ⟨_, hlt⟩).symm
  rw [Shape.rowMajor_val_one, Shape.rowMajor_val_two]
  show 2048 * (t.val % 32) + l.val = (win0_2.index t 0 * 1 + 1 * 0) * 65536 + (win0_2.index t 1 * 2048 + 1 * l.val)
  rw [(idx2 t).1, (idx2 t).2]; omega

/-- The second weight row's piece. -/
theorem blkBw (c : Dev nD) (t : Fin cfg0.N) (l : Fin 2048) :
    (iblk m c 3 t : Vec Ideal S1x2048 .f32) (ix2 (0 : Fin 1) l) = rd1 (inp m c).bw (2048 * (t.val % 32) + l.val) := by
  have hlt : 2048 * (t.val % 32) + l.val < 65536 := by have := l.isLt; omega
  unfold iblk
  rw [View.read_apply]
  show V m c main_v1 _ = _
  rw [V_v1]
  refine (shapeCast_apply _ shapeCasts_S65536_S1x65536 _ (ix1 ⟨_, hlt⟩) ?_).trans (rd1_of_lt (inp m c).bw ⟨_, hlt⟩).symm
  rw [Shape.rowMajor_val_one, Shape.rowMajor_val_two]
  show 2048 * (t.val % 32) + l.val = (win0_3.index t 0 * 1 + 1 * 0) * 65536 + (win0_3.index t 1 * 2048 + 1 * l.val)
  rw [(idx3 t).1, (idx3 t).2]; omega

/-- The four per-point sums over a tile's columns are the specification's tile sums. -/
theorem tile0 (c : Dev nD) (t : Fin cfg0.N) (r : Fin 128) :
    ∑ l : Fin 2048, term0 ((iblk m c 1 t : Vec Ideal S128x2048 .f32) (ix2 r l)) ((iblk m c 0 t : Vec Ideal S128x2048 .f32) (ix2 r l))
        ((iblk m c 2 t : Vec Ideal S1x2048 .f32) (ix2 (0 : Fin 1) l))
      = tileSum (inp m c) 0 (128 * (t.val / 32) + r.val) (t.val % 32) := by
  unfold tileSum
  refine Finset.sum_congr rfl fun l _ => ?_
  rw [blkT, blkP, blkCw]; rfl

theorem tile1 (c : Dev nD) (t : Fin cfg0.N) (r : Fin 128) :
    ∑ l : Fin 2048, term1 ((iblk m c 1 t : Vec Ideal S128x2048 .f32) (ix2 r l)) ((iblk m c 2 t : Vec Ideal S1x2048 .f32) (ix2 (0 : Fin 1) l))
      = tileSum (inp m c) 1 (128 * (t.val / 32) + r.val) (t.val % 32) := by
  unfold tileSum
  refine Finset.sum_congr rfl fun l _ => ?_
  rw [blkT, blkCw]; rfl

theorem tile2 (c : Dev nD) (t : Fin cfg0.N) (r : Fin 128) :
    ∑ l : Fin 2048, term2 ((iblk m c 0 t : Vec Ideal S128x2048 .f32) (ix2 r l)) ((iblk m c 2 t : Vec Ideal S1x2048 .f32) (ix2 (0 : Fin 1) l))
      = tileSum (inp m c) 2 (128 * (t.val / 32) + r.val) (t.val % 32) := by
  unfold tileSum
  refine Finset.sum_congr rfl fun l _ => ?_
  rw [blkP, blkCw]; rfl

theorem tile3 (c : Dev nD) (t : Fin cfg0.N) (r : Fin 128) :
    ∑ l : Fin 2048, term3 ((iblk m c 1 t : Vec Ideal S128x2048 .f32) (ix2 r l)) ((iblk m c 0 t : Vec Ideal S128x2048 .f32) (ix2 r l))
        ((iblk m c 3 t : Vec Ideal S1x2048 .f32) (ix2 (0 : Fin 1) l))
      = tileSum (inp m c) 3 (128 * (t.val / 32) + r.val) (t.val % 32) := by
  unfold tileSum
  refine Finset.sum_congr rfl fun l _ => ?_
  rw [blkT, blkP, blkBw]; rfl

end Cert.KernelIdeal.Blocks

end
-- ==== Proof.KPieces.lean ====
/-
  What each control case of the kernel body leaves in its four accumulator columns and in its output block, as the body's
  own pure terms of what it loaded: at the first column tile of a row block (case A) each column is reset to zero and then
  updated from the zero it reads back; at a middle tile (case B) each column is updated from what the tile before left; at
  the last tile (case C) the same update, after which the four updated columns, read back, are laid side by side into the
  output block. Stated for any number format.
-/
import proofs.«137860_j34583076667969_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]
variable (c : Dev nD) (i : grid0.Coords)
  (arg2 : Memref sig .tc .vmem S128x2048 .f32) (harg2 : arg2.IsWhole) (arg3 : Memref sig .tc .vmem S128x2048 .f32) (harg3 : arg3.IsWhole)
  (arg4 : Memref sig .tc .vmem S1x2048 .f32) (harg4 : arg4.IsWhole) (arg5 : Memref sig .tc .vmem S1x2048 .f32) (harg5 : arg5.IsWhole)
  (arg6 : Memref sig .tc .vmem S128x4 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S128x1 .f32) (harg9 : arg9.IsWhole) (arg10 : Memref sig .tc .vmem S128x1 .f32) (harg10 : arg10.IsWhole)
variable (x0 x1 : Vec F S128x2048 .f32) (x2 x3 : Vec F S1x2048 .f32) (xs0 xs1 xs2 xs3 : Vec F S128x1 .f32)

theorem hz : (![0, 0] : Fin 2 → Nat) = fun _ => 0 := funext fun a => by fin_cases a <;> rfl

/-! ## Case A: reset, then update from the zero read back -/

/-- Case A, the numerator's column: the update applied to the reset value. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3
      = k0_pay12 x1 x0 x2 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x1) hz, View.readCov_unit_zero (S := S128x1) _ hz]
  simp only [View.readAt_eq_ld, harg2.read_unread, harg3.read_unread, harg4.read_unread, View.ld_unit_zero (S := S128x2048) hz, View.ld_unit_zero (S := S1x2048) hz]

/-- Case A, the target's squared-norm column. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3
      = k0_pay13 x1 x2 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x1) hz, View.readCov_unit_zero (S := S128x1) _ hz]
  simp only [View.readAt_eq_ld, harg3.read_unread, harg4.read_unread, View.ld_unit_zero (S := S128x2048) hz, View.ld_unit_zero (S := S1x2048) hz]

/-- Case A, the prediction's squared-norm column. -/
theorem sA2 (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3
      = k0_pay1 (k0_pay6 (F := F)) (k0_pay14 x0 x2) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x1) hz, View.readCov_unit_zero (S := S128x1) _ hz]
  simp only [View.readAt_eq_ld, harg2.read_unread, harg4.read_unread, View.ld_unit_zero (S := S128x2048) hz, View.ld_unit_zero (S := S1x2048) hz]

/-- Case A, the weighted-loss column. -/
theorem sA3 (hc0 : cond0_0 i) (hc1 : ¬cond0_1 i) :
    sout0_A_3 c i arg2 harg2 arg3 harg3 arg4 harg4 arg5 harg5 arg6 harg6 arg7 harg7 arg8 harg8 arg9 harg9 arg10 harg10 hc0 hc1 x0 x1 x2 x3
      = k0_pay2 x1 x0 (k0_pay9 x3) (k0_pay7 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x1) hz, View.readCov_unit_zero (S := S128x1) _ hz]
  simp only [View.readAt_eq_ld, harg2.read_unread, harg3.read_unread, harg5.read_unread, View.ld_unit_zero (S := S128x2048) hz, View.ld_unit_zero (S := S1x2048) hz]

/-! ## Case B: update from what the tile before left -/

/-- Case B, the numerator's column: the update applied to the carried value. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 xs0 xs1 xs2 xs3
      = k0_pay12 x1 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg7.read_unread, View.ld_unit_zero (S := S128x2048) hz, View.ld_unit_zero (S := S1x2048) hz, View.ld_unit_zero (S := S128x1) hz]

/-- Case B, the target's squared-norm column. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 xs0 xs1 xs2 xs3
      = k0_pay13 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg3.read_unread, harg4.read_unread, harg8.read_unread, View.ld_unit_zero (S := S128x2048) hz, View.ld_unit_zero (S := S1x2048) hz, View.ld_unit_zero (S := S128x1) hz]

/-- Case B, the prediction's squared-norm column. -/
theorem sB2 (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 x3 xs0 xs1 xs2 xs3
      = k0_pay1 xs2 (k0_pay14 x0 x2) := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg4.read_unread, harg9.read_unread, View.ld_unit_zero (S := S128x2048) hz, View.ld_unit_zero (S := S1x2048) hz, View.ld_unit_zero (S := S128x1) hz]

/-- Case B, the weighted-loss column. -/
theorem sB3 (hc0 : ¬cond0_0 i) (hc1 : ¬cond0_1 i) :
    sout0_B_3 c i arg2 harg2 arg3 harg3 arg4 harg4 arg5 harg5 arg6 harg6 arg7 harg7 arg8 harg8 arg9 harg9 arg10 harg10 hc0 hc1 x0 x1 x2 x3 xs0 xs1 xs2 xs3
      = k0_pay2 x1 x0 (k0_pay9 x3) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg5.read_unread, harg10.read_unread, View.ld_unit_zero (S := S128x2048) hz, View.ld_unit_zero (S := S1x2048) hz, View.ld_unit_zero (S := S128x1) hz]

/-! ## Case C: the same update, and the four updated columns side by side -/

/-- Case C, the numerator's column. -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 xs0 xs1 xs2 xs3
      = k0_pay12 x1 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg7.read_unread, View.ld_unit_zero (S := S128x2048) hz, View.ld_unit_zero (S := S1x2048) hz, View.ld_unit_zero (S := S128x1) hz]

/-- Case C, the target's squared-norm column. -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 xs0 xs1 xs2 xs3
      = k0_pay13 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg3.read_unread, harg4.read_unread, harg8.read_unread, View.ld_unit_zero (S := S128x2048) hz, View.ld_unit_zero (S := S1x2048) hz, View.ld_unit_zero (S := S128x1) hz]

/-- Case C, the prediction's squared-norm column. -/
theorem sC2 (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 x3 xs0 xs1 xs2 xs3
      = k0_pay1 xs2 (k0_pay14 x0 x2) := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg4.read_unread, harg9.read_unread, View.ld_unit_zero (S := S128x2048) hz, View.ld_unit_zero (S := S1x2048) hz, View.ld_unit_zero (S := S128x1) hz]

/-- Case C, the weighted-loss column. -/
theorem sC3 (hc0 : ¬cond0_0 i) (hc1 : cond0_1 i) :
    sout0_C_3 c i arg2 harg2 arg3 harg3 arg4 harg4 arg5 harg5 arg6 harg6 arg7 harg7 arg8 harg8 arg9 harg9 arg10 harg10 hc0 hc1 x0 x1 x2 x3 xs0 xs1 xs2 xs3
      = k0_pay2 x1 x0 (k0_pay9 x3) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg5.read_unread, harg10.read_unread, View.ld_unit_zero (S := S128x2048) hz, View.ld_unit_zero (S := S1x2048) hz, View.ld_unit_zero (S := S128x1) hz]

/-- Case C, the output block: the four updated columns, each read back from its own store, side by side. -/
theorem oC4 (hc0 : ¬cond0_0 i) (hc1 : cond0_1 i) :
    out0_C_4 c i arg2 harg2 arg3 harg3 arg4 harg4 arg5 harg5 arg6 harg6 arg7 harg7 arg8 harg8 arg9 harg9 arg10 harg10 hc0 hc1 x0 x1 x2 x3 xs0 xs1 xs2 xs3
      = k0_pay3 (k0_pay12 x1 x0 x2 xs0) (k0_pay13 x1 x2 xs1) (k0_pay1 xs2 (k0_pay14 x0 x2)) (k0_pay2 x1 x0 (k0_pay9 x3) xs3) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readCov_unit_zero (S := S128x1) _ hz, View.readAt_eq_ld, harg2.read_unread, harg3.read_unread, harg4.read_unread, harg5.read_unread, harg7.read_unread, harg8.read_unread, harg9.read_unread, harg10.read_unread, View.ld_unit_zero (S := S128x2048) hz, View.ld_unit_zero (S := S1x2048) hz, View.ld_unit_zero (S := S128x1) hz]

end Cert.KernelIdeal.Pieces

end
-- ==== Proof.LibKeepdims.lean ====
/- A vector viewed as a one-column array, and a sum over a rank-1 index set: the two index facts a row reduction kept as a
   column (`sum(axis=1, keepdims=True)`) meets. -/
import Idealize.ShloMosaic.Lib.Pipeline.Value
import Idealize.ShloMosaic.Lib.ValueIdx

open Idealize.ShloMosaic Idealize.ShloMosaic.ValueIdx
open scoped BigOperators

namespace Idealize.ShloMosaic.Keepdims

/-- A length-`a` vector viewed as an [a, 1] column reads, at (p, q), the vector at p: both have row-major position p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An [a, 1] column viewed as a length-`a` vector reads, at p, the column at (p, 0). -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A sum over a rank-1 index set is the sum over its coordinate. -/
theorem sum_idx1 {M : Type*} [AddCommMonoid M] {n : ℕ} (f : (⟨1, ![n]⟩ : Shape).Idx → M) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

end Idealize.ShloMosaic.Keepdims
-- ==== Proof.KPayload.lean ====
/-
  What the kernel body's stores hold, entry by entry, over the extended reals.

  Per grid point the body has a [128, 2048] tile `t` of the target, the same tile `p` of the prediction and the matching
  [1, 2048] pieces `cw`, `bw` of the two weight rows. For each of its 128 rows it adds to four [128, 1] accumulators the sum
  over the tile's 2048 columns of the four per-entry terms; at the last column tile it lays the four accumulators side by
  side as a [128, 4] block.
-/
import proofs.«137860_j34583076667969_1_alg».proof.Proof.Gen.KernelIdeal.Skeleton
import proofs.«137860_j34583076667969_1_alg».proof.Proof.Spec
import proofs.«137860_j34583076667969_1_alg».proof.Proof.LibKeepdims
import Idealize.ShloMosaic.Lib.Pipeline.Value
import Idealize.ShloMosaic.Lib.ValueLayout
import Idealize.ShloMosaic.PureOps.Ideal.Laws

noncomputable section

open Idealize.ShloMosaic Idealize.ShloMosaic.ValueIdx
open scoped BigOperators

namespace Cert.KernelIdeal.Pay

open Cert.KernelIdeal Cert.KernelIdeal.Gen CosCel Idealize.ShloMosaic.Keepdims

/-- The lane sum of a [128, 2048] tile read at row `r`: the sum over the 2048 columns. -/
theorem laneSum_apply (v : FVec Ideal S128x2048 .f32) (h : S128x2048.Reduces [1] S128) (hφ : FKind.Formats .f32)
    (hacc : (0x00000000#32 : BitVec 32) = FKind.add.neutral .f32 hφ) (r : Fin 128) :
    multiReduction (F := Ideal) .add [1] S128 v 0x00000000#32 h hφ hacc (ix1 r) = ∑ l : Fin 2048, v (ix2 r l) := by
  refine (Ideal.multiReduction_add_single v 0x00000000#32 h hφ hacc (ix1 r)).trans ?_
  refine Finset.sum_congr rfl fun l _ => congrArg v ?_
  funext a
  match a with
  | ⟨0, _⟩ => rfl
  | ⟨1, _⟩ => rfl

/-- A running column plus the lane sum of a tile, as the body computes it (sum, view as a column, add, store as is). -/
theorem column_add_apply (acc : FVec Ideal S128x1 .f32) (v : FVec Ideal S128x2048 .f32) (h : S128x2048.Reduces [1] S128)
    (hφ : FKind.Formats .f32) (hacc : (0x00000000#32 : BitVec 32) = FKind.add.neutral .f32 hφ)
    (h1 : S128.ShapeCasts S128x1) (h2 : S128x1.ShapeCasts S128x1) (r : Fin 128) :
    shapeCast S128x1 (addf acc (shapeCast S128x1 (multiReduction (F := Ideal) .add [1] S128 v 0x00000000#32 h hφ hacc) h1)) h2 (ix2 r (0 : Fin 1))
      = acc (ix2 r (0 : Fin 1)) + ∑ l : Fin 2048, v (ix2 r l) := by
  rw [shapeCast_self]
  show acc (ix2 r (0 : Fin 1)) + shapeCast S128x1 _ h1 (ix2 r (0 : Fin 1)) = _
  rw [shapeCast_a_a1_apply _ h1 r 0, laneSum_apply]

/-- The weight row spread over the tile's rows reads, at (r, l), the row at l. -/
theorem spread_apply (w : FVec Ideal S1x2048 .f32) (h : S1x2048.Broadcasts S128x2048) (h' : S1x2048.ShapeCasts S1x2048)
    (r : Fin 128) (l : Fin 2048) :
    broadcastTo S128x2048 (shapeCast S1x2048 w h') h (ix2 r l) = w (ix2 (0 : Fin 1) l) := by
  rw [shapeCast_self]
  exact broadcastTo_1b_ab_apply w h r l

variable [Cert.KernelIdeal.Facts]

/-- Accumulator 0 (the numerator): the old column plus the tile's sum of (t·cw)·(p·cw). -/
theorem pay12_apply (t p : Vec Ideal S128x2048 .f32) (cw : Vec Ideal S1x2048 .f32) (acc : Vec Ideal S128x1 .f32) (r : Fin 128) :
    k0_pay12 (F := Ideal) t p cw acc (ix2 r (0 : Fin 1))
      = acc (ix2 r (0 : Fin 1)) + ∑ l : Fin 2048, term0 (t (ix2 r l)) (p (ix2 r l)) (cw (ix2 (0 : Fin 1) l)) := by
  unfold k0_pay12
  refine (column_add_apply acc _ _ _ _ _ _ r).trans ?_
  refine congrArg (acc (ix2 r (0 : Fin 1)) + ·) (Finset.sum_congr rfl fun l _ => ?_)
  unfold k0_pay10 k0_pay11 k0_pay8 term0
  show (t (ix2 r l) * broadcastTo S128x2048 _ _ (ix2 r l)) * (p (ix2 r l) * broadcastTo S128x2048 _ _ (ix2 r l)) = _
  rw [spread_apply]

/-- Accumulator 1 (the target's squared norm): the old column plus the tile's sum of (t·cw)². -/
theorem pay13_apply (t : Vec Ideal S128x2048 .f32) (cw : Vec Ideal S1x2048 .f32) (acc : Vec Ideal S128x1 .f32) (r : Fin 128) :
    k0_pay13 (F := Ideal) t cw acc (ix2 r (0 : Fin 1))
      = acc (ix2 r (0 : Fin 1)) + ∑ l : Fin 2048, term1 (t (ix2 r l)) (cw (ix2 (0 : Fin 1) l)) := by
  unfold k0_pay13
  refine (column_add_apply acc _ _ _ _ _ _ r).trans ?_
  refine congrArg (acc (ix2 r (0 : Fin 1)) + ·) (Finset.sum_congr rfl fun l _ => ?_)
  unfold k0_pay10 k0_pay8 term1
  show (t (ix2 r l) * broadcastTo S128x2048 _ _ (ix2 r l)) * (t (ix2 r l) * broadcastTo S128x2048 _ _ (ix2 r l)) = _
  rw [spread_apply]

/-- Accumulator 2 (the prediction's squared norm): the old column plus the tile's sum of (p·cw)². -/
theorem pay1_apply (p : Vec Ideal S128x2048 .f32) (cw : Vec Ideal S1x2048 .f32) (acc : Vec Ideal S128x1 .f32) (r : Fin 128) :
    k0_pay1 (F := Ideal) acc (k0_pay14 (F := Ideal) p cw) (ix2 r (0 : Fin 1))
      = acc (ix2 r (0 : Fin 1)) + ∑ l : Fin 2048, term2 (p (ix2 r l)) (cw (ix2 (0 : Fin 1) l)) := by
  unfold k0_pay1 k0_pay14
  refine (column_add_apply acc _ _ _ _ _ _ r).trans ?_
  refine congrArg (acc (ix2 r (0 : Fin 1)) + ·) (Finset.sum_congr rfl fun l _ => ?_)
  unfold k0_pay11 k0_pay8 term2
  show (p (ix2 r l) * broadcastTo S128x2048 _ _ (ix2 r l)) * (p (ix2 r l) * broadcastTo S128x2048 _ _ (ix2 r l)) = _
  rw [spread_apply]

/-- Accumulator 3 (the weighted loss): the old column plus the tile's sum of the weighted stable logistic loss. -/
theorem pay2_apply (t p : Vec Ideal S128x2048 .f32) (bw : Vec Ideal S1x2048 .f32) (acc : Vec Ideal S128x1 .f32) (r : Fin 128) :
    k0_pay2 (F := Ideal) t p (k0_pay9 (F := Ideal) bw) acc (ix2 r (0 : Fin 1))
      = acc (ix2 r (0 : Fin 1)) + ∑ l : Fin 2048, term3 (t (ix2 r l)) (p (ix2 r l)) (bw (ix2 (0 : Fin 1) l)) := by
  unfold k0_pay2
  refine (column_add_apply acc _ _ _ _ _ _ r).trans ?_
  refine congrArg (acc (ix2 r (0 : Fin 1)) + ·) (Finset.sum_congr rfl fun l _ => ?_)
  unfold k0_pay9 term3
  show (max (t (ix2 r l)) z0 - t (ix2 r l) * p (ix2 r l) + Ideal.log1p (Ideal.exp (z0 - max (t (ix2 r l)) (-(t (ix2 r l))))))
      * broadcastTo S128x2048 _ _ (ix2 r l) = _
  rw [spread_apply]

/-- The reset column is zero everywhere. -/
theorem pay4_apply (y : S128x1.Idx) : k0_pay4 (F := Ideal) y = z0 := by
  unfold k0_pay4; rw [shapeCast_self]; rfl
theorem pay5_apply (y : S128x1.Idx) : k0_pay5 (F := Ideal) y = z0 := by
  unfold k0_pay5; rw [shapeCast_self]; rfl
theorem pay6_apply (y : S128x1.Idx) : k0_pay6 (F := Ideal) y = z0 := by
  unfold k0_pay6; rw [shapeCast_self]; rfl
theorem pay7_apply (y : S128x1.Idx) : k0_pay7 (F := Ideal) y = z0 := by
  unfold k0_pay7; rw [shapeCast_self]; rfl

/-- The four columns side by side: entry (r, j) of the [128, 4] block is column j at row r. -/
theorem pay3_apply (a0 a1 a2 a3 : Vec Ideal S128x1 .f32) (r : Fin 128) (j : Fin 4) :
    k0_pay3 (F := Ideal) a0 a1 a2 a3 (ix2 r j)
      = (match j with | 0 => a0 | 1 => a1 | 2 => a2 | 3 => a3) (ix2 r (0 : Fin 1)) := by
  unfold k0_pay3
  match j with
  | 0 =>
    refine concatenate_apply_piece (t := S128x4) (1 : Fin 2) [⟨S128x1, a0⟩, ⟨S128x1, a1⟩, ⟨S128x1, a2⟩, ⟨S128x1, a3⟩]
      concatenates_S128x1_S128x1_S128x1_S128x1_S128x4_d1 (ix2 r (0 : Fin 4)) 0 (show (0 : ℕ) < 4 by omega) S128x1 a0 rfl rfl 0 rfl (ix2 r (0 : Fin 1)) ?_ rfl
    · intro b hb
      match b with
      | ⟨0, _⟩ => rfl
      | ⟨1, _⟩ => exact absurd rfl hb
  | 1 =>
    refine concatenate_apply_piece (t := S128x4) (1 : Fin 2) [⟨S128x1, a0⟩, ⟨S128x1, a1⟩, ⟨S128x1, a2⟩, ⟨S128x1, a3⟩]
      concatenates_S128x1_S128x1_S128x1_S128x1_S128x4_d1 (ix2 r (1 : Fin 4)) 1 (show (1 : ℕ) < 4 by omega) S128x1 a1 rfl rfl 1 rfl (ix2 r (0 : Fin 1)) ?_ rfl
    · intro b hb
      match b with
      | ⟨0, _⟩ => rfl
      | ⟨1, _⟩ => exact absurd rfl hb
  | 2 =>
    refine concatenate_apply_piece (t := S128x4) (1 : Fin 2) [⟨S128x1, a0⟩, ⟨S128x1, a1⟩, ⟨S128x1, a2⟩, ⟨S128x1, a3⟩]
      concatenates_S128x1_S128x1_S128x1_S128x1_S128x4_d1 (ix2 r (2 : Fin 4)) 2 (show (2 : ℕ) < 4 by omega) S128x1 a2 rfl rfl 2 rfl (ix2 r (0 : Fin 1)) ?_ rfl
    · intro b hb
      match b with
      | ⟨0, _⟩ => rfl
      | ⟨1, _⟩ => exact absurd rfl hb
  | 3 =>
    refine concatenate_apply_piece (t := S128x4) (1 : Fin 2) [⟨S128x1, a0⟩, ⟨S128x1, a1⟩, ⟨S128x1, a2⟩, ⟨S128x1, a3⟩]
      concatenates_S128x1_S128x1_S128x1_S128x1_S128x4_d1 (ix2 r (3 : Fin 4)) 3 (show (3 : ℕ) < 4 by omega) S128x1 a3 rfl rfl 3 rfl (ix2 r (0 : Fin 1)) ?_ rfl
    · intro b hb
      match b with
      | ⟨0, _⟩ => rfl
      | ⟨1, _⟩ => exact absurd rfl hb

end Cert.KernelIdeal.Pay

end
-- ==== Proof.KInvariant.lean ====
/-
  The kernel's accumulators, point by point. At grid point t = 32·b + k the column of accumulator j holds, at row r, the
  running sum of term j over column tiles 0 … k of row 128·b + r: zero plus tile 0 at k = 0, the point before plus tile k
  afterwards (induction on the point). At k = 31 the running sum is the whole row sum, and the block written back there has
  the four of them side by side.
-/
import proofs.«137860_j34583076667969_1_alg».proof.Proof.Gen.KernelIdeal.Frame
import proofs.«137860_j34583076667969_1_alg».proof.Proof.Spec
import proofs.«137860_j34583076667969_1_alg».proof.Proof.KPieces
import proofs.«137860_j34583076667969_1_alg».proof.Proof.KPayload
import proofs.«137860_j34583076667969_1_alg».proof.Proof.KBlocks

set_option maxRecDepth 16384

noncomputable section

open Idealize.ShloMosaic Idealize.ShloMosaic.TcCoe Idealize.ShloMosaic.ValueIdx Idealize.SL.Sem
open scoped BigOperators

namespace Cert.KernelIdeal.Inv

open Cert.KernelIdeal Cert.KernelIdeal.Gen CosCel Cert.KernelIdeal.Blocks Cert.KernelIdeal.Pay Cert.KernelIdeal.Pieces

/-! ## The running sum along the points of one row block -/

/-- At the first column tile the running sum is zero plus that tile. -/
theorem runSum_first (I : Inputs) (j : Fin 4) (n r : ℕ) (h0 : n % 32 = 0) :
    z0 + tileSum I j (128 * (n / 32) + r) (n % 32) = runSum I j (128 * (n / 32) + r) (n % 32) := by
  rw [h0, runSum_zero, z0_eq, zero_add]

/-- At a later column tile it is the point before's running sum plus that tile (same row block, next tile). -/
theorem runSum_step (I : Inputs) (j : Fin 4) (n r : ℕ) (h0 : ¬n % 32 = 0) :
    runSum I j (128 * ((n - 1) / 32) + r) ((n - 1) % 32) + tileSum I j (128 * (n / 32) + r) (n % 32)
      = runSum I j (128 * (n / 32) + r) (n % 32) := by
  have e1 : (n - 1) / 32 = n / 32 := by omega
  have e2 : n % 32 = (n - 1) % 32 + 1 := by omega
  rw [e1, e2, runSum_succ]

variable (m : (ℓ : Loc nD τ sig) → Buf (Elt Ideal) ℓ)

/-- Accumulator j after point n, as a [128, 1] column. -/
def accAt (c : Dev nD) (j : Fin 4) (n : ℕ) : Vec Ideal S128x1 .f32 :=
  fun y => runSum (inp m c) j (128 * (n / 32) + (y 0).val) (n % 32)

/-- Two [128, 1] columns agree when they agree at every row. -/
theorem col_ext (a b : Vec Ideal S128x1 .f32) (h : ∀ r : Fin 128, a (ix2 r (0 : Fin 1)) = b (ix2 r (0 : Fin 1))) : a = b :=
  funext fun y => by
    obtain ⟨r, q, rfl⟩ : ∃ (r : Fin 128) (q : Fin 1), y = ix2 r q := ⟨y 0, y 1, eq_ix2 y⟩
    obtain rfl : q = 0 := Subsingleton.elim _ _
    exact h r

/-! ## One point's update of each accumulator -/

theorem first0 (c : Dev nD) (t : Fin cfg0.N) (h0 : t.val % 32 = 0) :
    k0_pay12 (F := Ideal) (iblk m c 1 t) (iblk m c 0 t) (iblk m c 2 t) (k0_pay4 (F := Ideal)) = accAt m c 0 t.val := by
  refine col_ext _ _ fun r => ?_
  refine (pay12_apply (iblk m c 1 t) (iblk m c 0 t) (iblk m c 2 t) (k0_pay4 (F := Ideal)) r).trans ?_
  rw [tile0 m c t r, pay4_apply]
  exact runSum_first (inp m c) 0 t.val r.val h0

theorem first1 (c : Dev nD) (t : Fin cfg0.N) (h0 : t.val % 32 = 0) :
    k0_pay13 (F := Ideal) (iblk m c 1 t) (iblk m c 2 t) (k0_pay5 (F := Ideal)) = accAt m c 1 t.val := by
  refine col_ext _ _ fun r => ?_
  refine (pay13_apply (iblk m c 1 t) (iblk m c 2 t) (k0_pay5 (F := Ideal)) r).trans ?_
  rw [tile1 m c t r, pay5_apply]
  exact runSum_first (inp m c) 1 t.val r.val h0

theorem first2 (c : Dev nD) (t : Fin cfg0.N) (h0 : t.val % 32 = 0) :
    k0_pay1 (F := Ideal) (k0_pay6 (F := Ideal)) (k0_pay14 (F := Ideal) (iblk m c 0 t) (iblk m c 2 t)) = accAt m c 2 t.val := by
  refine col_ext _ _ fun r => ?_
  refine (pay1_apply (iblk m c 0 t) (iblk m c 2 t) (k0_pay6 (F := Ideal)) r).trans ?_
  rw [tile2 m c t r, pay6_apply]
  exact runSum_first (inp m c) 2 t.val r.val h0

theorem first3 (c : Dev nD) (t : Fin cfg0.N) (h0 : t.val % 32 = 0) :
    k0_pay2 (F := Ideal) (iblk m c 1 t) (iblk m c 0 t) (k0_pay9 (F := Ideal) (iblk m c 3 t)) (k0_pay7 (F := Ideal)) = accAt m c 3 t.val := by
  refine col_ext _ _ fun r => ?_
  refine (pay2_apply (iblk m c 1 t) (iblk m c 0 t) (iblk m c 3 t) (k0_pay7 (F := Ideal)) r).trans ?_
  rw [tile3 m c t r, pay7_apply]
  exact runSum_first (inp m c) 3 t.val r.val h0

theorem next0 (c : Dev nD) (t : Fin cfg0.N) (h0 : ¬t.val % 32 = 0) (prev : Vec Ideal S128x1 .f32)
    (hprev : prev = accAt m c 0 (t.val - 1)) :
    k0_pay12 (F := Ideal) (iblk m c 1 t) (iblk m c 0 t) (iblk m c 2 t) prev = accAt m c 0 t.val := by
  refine col_ext _ _ fun r => ?_
  refine (pay12_apply (iblk m c 1 t) (iblk m c 0 t) (iblk m c 2 t) prev r).trans ?_
  rw [tile0 m c t r, hprev]
  exact runSum_step (inp m c) 0 t.val r.val h0

theorem next1 (c : Dev nD) (t : Fin cfg0.N) (h0 : ¬t.val % 32 = 0) (prev : Vec Ideal S128x1 .f32)
    (hprev : prev = accAt m c 1 (t.val - 1)) :
    k0_pay13 (F := Ideal) (iblk m c 1 t) (iblk m c 2 t) prev = accAt m c 1 t.val := by
  refine col_ext _ _ fun r => ?_
  refine (pay13_apply (iblk m c 1 t) (iblk m c 2 t) prev r).trans ?_
  rw [tile1 m c t r, hprev]
  exact runSum_step (inp m c) 1 t.val r.val h0

theorem next2 (c : Dev nD) (t : Fin cfg0.N) (h0 : ¬t.val % 32 = 0) (prev : Vec Ideal S128x1 .f32)
    (hprev : prev = accAt m c 2 (t.val - 1)) :
    k0_pay1 (F := Ideal) prev (k0_pay14 (F := Ideal) (iblk m c 0 t) (iblk m c 2 t)) = accAt m c 2 t.val := by
  refine col_ext _ _ fun r => ?_
  refine (pay1_apply (iblk m c 0 t) (iblk m c 2 t) prev r).trans ?_
  rw [tile2 m c t r, hprev]
  exact runSum_step (inp m c) 2 t.val r.val h0

theorem next3 (c : Dev nD) (t : Fin cfg0.N) (h0 : ¬t.val % 32 = 0) (prev : Vec Ideal S128x1 .f32)
    (hprev : prev = accAt m c 3 (t.val - 1)) :
    k0_pay2 (F := Ideal) (iblk m c 1 t) (iblk m c 0 t) (k0_pay9 (F := Ideal) (iblk m c 3 t)) prev = accAt m c 3 t.val := by
  refine col_ext _ _ fun r => ?_
  refine (pay2_apply (iblk m c 1 t) (iblk m c 0 t) (iblk m c 3 t) prev r).trans ?_
  rw [tile3 m c t r, hprev]
  exact runSum_step (inp m c) 3 t.val r.val h0

/-! ## The accumulators after every point -/

/-- The four carried columns of a point's contents are the four running sums after point n. -/
def Good (c : Dev nD) (n : ℕ) (x : Vec Ideal S128x4 .f32 × Vec Ideal S128x1 .f32 × Vec Ideal S128x1 .f32 × Vec Ideal S128x1 .f32 × Vec Ideal S128x1 .f32) : Prop :=
  x.2.1 = accAt m c 0 n ∧ x.2.2.1 = accAt m c 1 n ∧ x.2.2.2.1 = accAt m c 2 n ∧ x.2.2.2.2 = accAt m c 3 n

theorem pointA (c : Dev nD) (t : Fin cfg0.N) (h0 : t.val % 32 = 0) (h1 : ¬t.val % 32 = 31) :
    Good m c t.val (outsAt0 m c t.val t.isLt) := by
  unfold Good
  rw [outsAt0_A m c t h0 h1]
  dsimp only
  refine ⟨?_, ?_, ?_, ?_⟩
  · exact (sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _).trans (first0 m c t h0)
  · exact (sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _).trans (first1 m c t h0)
  · exact (sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _).trans (first2 m c t h0)
  · exact (sA3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _).trans (first3 m c t h0)

theorem pointB (c : Dev nD) (t : Fin cfg0.N) (h0 : ¬t.val % 32 = 0) (h1 : ¬t.val % 32 = 31)
    (ih : Good m c (t.val - 1) (outsAt0 m c (t.val - 1) (Nat.lt_of_le_of_lt (Nat.sub_le _ _) t.isLt))) :
    Good m c t.val (outsAt0 m c t.val t.isLt) := by
  unfold Good at ih ⊢
  rw [outsAt0_B m c t h0 h1]
  dsimp only
  refine ⟨?_, ?_, ?_, ?_⟩
  · exact (sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next0 m c t h0 _ ih.1)
  · exact (sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next1 m c t h0 _ ih.2.1)
  · exact (sB2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next2 m c t h0 _ ih.2.2.1)
  · exact (sB3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next3 m c t h0 _ ih.2.2.2)

theorem pointC (c : Dev nD) (t : Fin cfg0.N) (h0 : ¬t.val % 32 = 0) (h1 : t.val % 32 = 31)
    (ih : Good m c (t.val - 1) (outsAt0 m c (t.val - 1) (Nat.lt_of_le_of_lt (Nat.sub_le _ _) t.isLt))) :
    Good m c t.val (outsAt0 m c t.val t.isLt) := by
  unfold Good at ih ⊢
  rw [outsAt0_C m c t h0 h1]
  dsimp only
  refine ⟨?_, ?_, ?_, ?_⟩
  · exact (sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next0 m c t h0 _ ih.1)
  · exact (sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next1 m c t h0 _ ih.2.1)
  · exact (sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next2 m c t h0 _ ih.2.2.1)
  · exact (sC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _).trans (next3 m c t h0 _ ih.2.2.2)

/-- After every point the carried columns are the running sums: induction on the point. -/
theorem good_all (c : Dev nD) : ∀ (n : ℕ) (hn : n < cfg0.N), Good m c n (outsAt0 m c n hn)
  | 0, hn => pointA m c ⟨0, hn⟩ rfl (by show ¬(0 : ℕ) % 32 = 31; decide)
  | n + 1, hn => by
    have hN : cfg0.N = 128 := N_0
    have ih := good_all c n (Nat.lt_of_succ_lt hn)
    by_cases h0 : (n + 1) % 32 = 0
    · exact pointA m c ⟨n + 1, hn⟩ h0 (by show ¬(n + 1) % 32 = 31; omega)
    · by_cases h1 : (n + 1) % 32 = 31
      · exact pointC m c ⟨n + 1, hn⟩ h0 h1 ih
      · exact pointB m c ⟨n + 1, hn⟩ h0 h1 ih

/-- The block written back at the last column tile of a row block: entry (r, j) is the whole row sum of term j. -/
theorem out_last (c : Dev nD) (t : Fin cfg0.N) (h1 : t.val % 32 = 31) (r : Fin 128) (j : Fin 4) :
    (outsAt0 m c t.val t.isLt).1 (ix2 r j) = rowSum (inp m c) j (128 * (t.val / 32) + r.val) := by
  have h0 : ¬t.val % 32 = 0 := by omega
  have hN : cfg0.N = 128 := N_0
  have ih : Good m c (t.val - 1) (outsAt0 m c (t.val - 1) (Nat.lt_of_le_of_lt (Nat.sub_le _ _) t.isLt)) := good_all m c _ _
  unfold Good at ih
  rw [outsAt0_C m c t h0 h1]
  dsimp only
  rw [oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) _ _ _ _ _ _]
  rw [pay3_apply, next0 m c t h0 _ ih.1, next1 m c t h0 _ ih.2.1, next2 m c t h0 _ ih.2.2.1, next3 m c t h0 _ ih.2.2.2]
  rw [← runSum_last, ← h1]
  match j with
  | 0 => rfl
  | 1 => rfl
  | 2 => rfl
  | 3 => rfl

end Cert.KernelIdeal.Inv

end
-- ==== Proof.KFinal.lean ====
/-
  The kernel program's result. The pipeline writes the output block back once per row block, at its last column tile; the
  four write-backs tile the [512, 4] result, which therefore ends holding, at (R, j), the whole row sum of term j over row R.
  The host operations after the region cut that array into its four columns and apply the closing arithmetic.
-/
import proofs.«137860_j34583076667969_1_alg».proof.Proof.Gen.KernelIdeal.Frame
import proofs.«137860_j34583076667969_1_alg».proof.Proof.Spec
import proofs.«137860_j34583076667969_1_alg».proof.Proof.Finish
import proofs.«137860_j34583076667969_1_alg».proof.Proof.KBlocks
import proofs.«137860_j34583076667969_1_alg».proof.Proof.KInvariant
import proofs.«137860_j34583076667969_1_alg».proof.Proof.LibKeepdims
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Final

open Cert.KernelIdeal Cert.KernelIdeal.Gen CosCel Cert.KernelIdeal.Blocks Cert.KernelIdeal.Inv Idealize.ShloMosaic.Keepdims

variable (m : (ℓ : Loc nD τ sig) → Buf (Elt Ideal) ℓ) (ρ : Dev nD → PrngReg)

/-- The whole row sum of term number `jn` (a natural below 4; zero otherwise). -/
def rowSumV (I : Inputs) (jn R : ℕ) : EReal := if h : jn < 4 then rowSum I ⟨jn, h⟩ R else 0

theorem rowSumV_of_lt (I : Inputs) (j : Fin 4) (R : ℕ) : rowSumV I j.val R = rowSum I j R := by
  unfold rowSumV; rw [dif_pos j.isLt]

/-- What the [512, 4] result array ends holding: at (R, j) the whole row sum of term j over row R. -/
def sums (c : Dev nD) : S512x4.Idx → EReal := fun i => rowSumV (inp m c) (i 1).val (i 0).val

/-- What the write-back at the last column tile of row block b writes: rows 128·b … 128·b + 127 of `sums`. -/
theorem flushed_eq (c : Dev nD) (t : Fin cfg0.N) (hf : (cfg0.win 4).flush t = true) :
    (dats m 0 c).flushed 4 t = ((cfg0.win 4).blk t).view.read (Elt Ideal) (sums m c) := by
  have h1 : t.val % 32 = 31 := (flush0_4 t).mp hf
  have hX : ∀ (r : Fin 128) (j : Fin 4),
      (outsAt0 m c t.val t.isLt).1 (ix2 r j) = rowSum (inp m c) j (128 * (t.val / 32) + r.val) := out_last m c t h1
  unfold Dat.flushed
  rw [after0_4]
  generalize (outsAt0 m c t.val t.isLt).1 = X at hX ⊢
  funext y
  obtain ⟨r, j, rfl⟩ : ∃ (r : Fin 128) (j : Fin 4), y = ix2 r j := ⟨y 0, y 1, eq_ix2 y⟩
  rw [View.read_apply]
  have hj : (cfg0.win 4).xinj (cfg0.grid.coords t) (ix2 r j) = ix2 r j :=
    funext fun a => Fin.ext (by
      match a with
      | ⟨0, _⟩ => rfl
      | ⟨1, _⟩ => rfl)
  refine (congrArg X hj).trans ?_
  rw [hX r j]
  unfold sums
  have e0 : ((((cfg0.win 4).blk t).view.emb (ix2 r j)) 0).val = 128 * (t.val / 32) + r.val := by
    show win0_4.index t 0 * 128 + 1 * r.val = _
    rw [(idx4 t).1]; omega
  have e1 : ((((cfg0.win 4).blk t).view.emb (ix2 r j)) 1).val = j.val := by
    show win0_4.index t 1 * 4 + 1 * j.val = _
    rw [(idx4 t).2]; omega
  rw [e0, e1]
  exact (rowSumV_of_lt (inp m c) j _).symm

/-- An index of the result array lies in point t's block iff each coordinate lies in the block's range on its axis. -/
theorem mem_blk (t : Fin cfg0.N) (i : S512x4.Idx) :
    i ∈ ((cfg0.win 4).blk t).view.set ↔ ∀ a : Fin 2, win0_4.index t a * S128x4.size a ≤ (i a).val ∧ (i a).val < win0_4.index t a * S128x4.size a + S128x4.size a := by
  show i ∈ ((View.whole main_v2).slice (win0_4.rect t)).set ↔ _
  rw [View.set_slice_whole, Rect.mem_set_unit]
  exact Iff.rfl

/-- Every entry of the result array is written back: row R at the last column tile of row block R / 128. -/
theorem cover (i : S512x4.Idx) : ∃ t : Fin cfg0.N, (cfg0.win 4).flush t = true ∧ i ∈ ((cfg0.win 4).blk t).view.set := by
  have hN : cfg0.N = 128 := N_0
  have hi0 : (i 0).val < 512 := (i 0).isLt
  have hi1 : (i 1).val < 4 := (i 1).isLt
  refine ⟨⟨32 * ((i 0).val / 128) + 31, by rw [hN]; omega⟩, (flush0_4 _).mpr (by show (32 * ((i 0).val / 128) + 31) % 32 = 31; omega), ?_⟩
  rw [mem_blk]
  intro a
  match a with
  | ⟨0, _⟩ =>
    show win0_4.index _ (0 : Fin 2) * 128 ≤ (i 0).val ∧ (i 0).val < win0_4.index _ (0 : Fin 2) * 128 + 128
    rw [(idx4 _).1]
    show (32 * ((i 0).val / 128) + 31) / 32 * 128 ≤ (i 0).val ∧ (i 0).val < (32 * ((i 0).val / 128) + 31) / 32 * 128 + 128
    omega
  | ⟨1, _⟩ =>
    show win0_4.index _ (1 : Fin 2) * 4 ≤ (i 1).val ∧ (i 1).val < win0_4.index _ (1 : Fin 2) * 4 + 4
    rw [(idx4 _).2]
    omega

/-- The result array after the region. -/
theorem final (c : Dev nD) : (dats m 0 c).arrAt 4 cfg0.N = sums m c :=
  (dats m 0 c).arrAt_eq_of_cover 4 (sums m c) (flushed_eq m c) cover

/-- Column j of `sums`, cut out and viewed as a length-512 vector, is the vector of row sums of term j. -/
theorem column (c : Dev nD) (j : Fin 4) (off : Fin 2 → ℕ) (hoff : off = ![0, j.val]) (h : S512x4.Slices off S512x1)
    (h' : S512x1.ShapeCasts S512) :
    shapeCast S512 (extractStridedSlice S512x1 off (sums m c) h) h' = rowSums (inp m c) j := by
  subst hoff
  funext i
  obtain ⟨R, rfl⟩ : ∃ R : Fin 512, i = ix1 R := ⟨i 0, eq_ix1 i⟩
  refine (shapeCast_apply _ h' (ix1 R) (ix2 R (0 : Fin 1)) (by
    rw [Shape.rowMajor_val_two, Shape.rowMajor_val_one]
    show R.val * 1 + 0 = R.val
    omega)).trans ?_
  refine (extractStridedSlice_apply _ (sums m c) h (ix2 R (0 : Fin 1)) (ix2 R j) (fun a => by
    match a with
    | ⟨0, _⟩ => show R.val = 0 + R.val; omega
    | ⟨1, _⟩ => show j.val = j.val + 0; rfl)).trans ?_
  exact rowSumV_of_lt (inp m c) j R.val

/-- The host's sum of the fourth column is the total of the weighted loss. -/
theorem total_eq (c : Dev nD) (hr : S512.ReducesTo [0] S_) (h0 : 0 < S_.numel) :
    Host.reduceAdd (F := Ideal) (rowSums (inp m c) 3) (constant (F := Ideal) S_ .f32 0x00000000#32) hr h0 = total (inp m c) := by
  funext i
  show Ideal.hostReduceAdd hr (rowSums (inp m c) 3) z0 i = _
  rw [Ideal.hostReduceAdd_total hr (fun b => b.elim0), sum_idx1]
  rfl

set_option maxHeartbeats 4000000 in
/-- The program's result after the host operations that follow the region. -/
theorem tail_eq (c : Dev nD) :
    Pipeline.afterTail₀ cfgs (dats m) 0 (V0 m) [hostOps1] c main_v27
      = result bcast_S_S512 reducesTo_S512_S_d0 reducesTo_S65536_S_d0 h_S_ (inp m c) := by
  unfold Pipeline.afterTail₀
  show StableHlo.after hostOps1 _ (Proc.devRef .tc main_v27) = _
  after_results
  have hv2 : Pipeline.withArrays (cfgs 0).spec c (V0 m c) (fun w => (dats m 0 c).arrAt w (cfgs 0).N) (Proc.devRef .tc main_v2)
      = sums m c := (Pipeline.withArrays_arr spec0 launch0.win.arr_inj c _ _ 4).trans (final m c)
  have ha3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [hv2, ha3]
  show finish bcast_S_S512 reducesTo_S512_S_d0 reducesTo_S65536_S_d0 h_S_
      (shapeCast S512 (extractStridedSlice S512x1 ![0, 0] (sums m c) slices_S512x4_S512x1_0_0) shapeCasts_S512x1_S512)
      (shapeCast S512 (extractStridedSlice S512x1 ![0, 1] (sums m c) slices_S512x4_S512x1_0_1) shapeCasts_S512x1_S512)
      (shapeCast S512 (extractStridedSlice S512x1 ![0, 2] (sums m c) slices_S512x4_S512x1_0_2) shapeCasts_S512x1_S512)
      (Host.reduceAdd (F := Ideal)
        (shapeCast S512 (extractStridedSlice S512x1 ![0, 3] (sums m c) slices_S512x4_S512x1_0_3) shapeCasts_S512x1_S512)
        (constant (F := Ideal) S_ .f32 0x00000000#32) reducesTo_S512_S_d0 h_S_)
      (m ((c : Thread nD τ).loc main_arg3)) = _
  rw [column m c 0 ![0, 0] rfl, column m c 1 ![0, 1] rfl, column m c 2 ![0, 2] rfl, column m c 3 ![0, 3] rfl, total_eq]
  rfl

/-- The run, read: the result at the specification's, the arguments unchanged. -/
theorem run : θ_run defs (onTc (τ := τ) (main (F := Ideal))) ⟨m, fun _ => 0, ρ⟩ fun r => ∀ c : Dev nD,
      r.2.mem ((c : Thread nD τ).loc main_v27)
        = result bcast_S_S512 reducesTo_S512_S_d0 reducesTo_S65536_S_d0 h_S_ (inp m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v27 (Pipeline.mem_restRefs_of main_v27 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  The kernel streams the [512, 65536] prediction and target once, in 4 × 32 tiles of [128, 2048], keeping per row four
  running sums — Σ (t·cw)(p·cw), Σ (t·cw)², Σ (p·cw)² and Σ of the weighted stable logistic loss — and hands the four
  whole-row sums to a few host operations that form the cosine and loss terms; the reference forms the same four sums with
  one reduction each and applies the same closing arithmetic.

  Over the extended reals the two agree because a row's sum over 65536 columns is the sum over the 32 column tiles of the
  tiles' sums, the total over all entries is the sum over rows of the rows' sums, and `0 + x = x`, `0 − x = −x`: regrouping
  and reordering of sums only, so the precondition (finite inputs) is never used.

  Proof/Spec.lean states the four terms and the sums; Proof/KPieces.lean, KPayload.lean, KBlocks.lean read what one grid
  point's body stores; Proof/KInvariant.lean carries the running sums along the grid by induction on the point;
  Proof/KFinal.lean reads the result array and the host operations after the region; Proof/RefValue.lean reads the
  reference; Proof/Finish.lean is the closing arithmetic both share.
-/
import proofs.«137860_j34583076667969_1_alg».proof.Defs
import proofs.«137860_j34583076667969_1_alg».proof.Proof.Gen.Kernel
import proofs.«137860_j34583076667969_1_alg».proof.Proof.Gen.Kernel.Frame
import proofs.«137860_j34583076667969_1_alg».proof.Proof.Gen.KernelIdeal
import proofs.«137860_j34583076667969_1_alg».proof.Proof.Gen.KernelIdeal.Frame
import proofs.«137860_j34583076667969_1_alg».proof.Proof.Gen.ReferenceIdeal
import proofs.«137860_j34583076667969_1_alg».proof.Proof.Gen.ReferenceIdeal.Run
import proofs.«137860_j34583076667969_1_alg».proof.Proof.Gen.ReferenceIdeal.Read
import proofs.«137860_j34583076667969_1_alg».proof.Proof.Gen.Pre_finite_inputs
import proofs.«137860_j34583076667969_1_alg».proof.Proof.RefValue
import proofs.«137860_j34583076667969_1_alg».proof.Proof.KFinal
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's result of inputs that agree. -/
theorem algebraic : Cert.algebraic_KernelIdeal_ReferenceIdeal := by
  intro m ρ m' ρ' _ hagree
  refine ⟨fun c => CosCel.result Cert.KernelIdeal.Gen.bcast_S_S512 Cert.KernelIdeal.Gen.reducesTo_S512_S_d0
    Cert.KernelIdeal.Gen.reducesTo_S65536_S_d0 Cert.KernelIdeal.Gen.h_S_ (Cert.KernelIdeal.Blocks.inp m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
